-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S32x2048x64_S2x16x2048x64 : S32x2048x64.ShapeCasts S2x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S_, .f32⟩
  | .hbm, ⟨13, _⟩ => ⟨S2x16x2048, .f32⟩
  | .hbm, ⟨14, _⟩ => ⟨S2x16x2048, .f32⟩
  | .hbm, ⟨15, _⟩ => ⟨S2x16x2048x1, .f32⟩
  | .hbm, ⟨16, _⟩ => ⟨S2x16x2048x2048, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibAggAlgebra.lean ====
/-
  Extended-real algebra for a neighbourhood sum over a zero-one adjacency.

  On the extended reals products do not distribute over sums at the infinities, and a sum of
  coerced reals has to be shown to be the coerced sum. Every lemma here assumes its operands are
  (coercions of) real numbers, moves the whole identity into the reals, and proves it there.
-/
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

/-- An extended real that is (the coercion of) a real number. -/
abbrev IsReal (x : EReal) : Prop := ∃ r : ℝ, x = (r : EReal)

variable {ι : Type*}

/-! ### Reals are closed under the operations of the network -/

theorem isReal_coe (r : ℝ) : IsReal (r : EReal) := ⟨r, rfl⟩

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

/-! ### (i) The scaled neighbourhood sum factors -/

/-- With a zero-one weight `a` and real `h`, `d`, `hj`, `dj`: summing `h i * (d i * dj)` over the
    indices where `a` is not zero, and adding the self term `hj * (dj * dj)`, is the weighted sum
    `∑ a i * (h i * d i)` plus `hj * dj`, all times `dj`. -/
theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj
  -- every summand on either side is the coercion of a real summand
  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1
  -- the identity in the reals: distribute the last factor over the sum
  rw [add_mul, Finset.sum_mul]
  congr 1
  · refine Finset.sum_congr rfl fun i _ => ?_
    split_ifs <;> ring
  · ring

/-! ### (ii) The degree: a count, a real at least one, and its inverse square root -/

/-- Counting the indices where a zero-one weight is not zero is summing the weight. -/
theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

/-- The sum of a zero-one weight, plus one, is a real number at least one. -/
theorem sum_add_one_real [Fintype ι] (a : ι → EReal) (ha : ∀ i, a i = 0 ∨ a i = 1) :
    ∃ r : ℝ, 1 ≤ r ∧ (∑ i, a i) + 1 = (r : EReal) := by
  classical
  -- the weight as a real zero-one function
  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

/-- One over the square root is the inverse square root, at a positive real. -/
theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

/-- The inverse square root of a positive real is a positive real. -/
theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

/-- A positive real compares greater than zero. -/
theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.Softmax.lean ====
/-
  Scaled dot-product attention for one query row, as a function on the extended reals.

  For a query row `q` (over the head dimension `κ`), keys `kk` and one column `v` of the values (both over
  the key positions `ι`):
    score j   = (∑ e, q e · kk j e) · 1/8
    rowMax    = the largest score
    weight j  = exp (score j − rowMax)
    total     = ∑ j, weight j
  One program divides the weighted sum of the values by the total; the other divides every weight by the
  total first and then sums. On the extended reals a quotient does not move across a sum at the infinities,
  so the two are shown equal where every score and every value is a real number: then the largest score is
  one of the scores, every weight is a positive real, the total is a positive real, and the identity is
  `(∑ w·v) · t⁻¹ = ∑ (w · t⁻¹) · v` in the reals.
-/
import Mathlib.Analysis.SpecialFunctions.Exp
import Mathlib.Analysis.SpecialFunctions.Sqrt
import Mathlib.Order.CompleteLattice.Finset
import Idealize.ShloMosaic.PureOps.Ideal
import proofs.«417647_j80436147519951_3_alg».proof.Proof.LibAggAlgebra

noncomputable section

namespace Cert.Attn

open Idealize.ShloMosaic Cert.AggAlgebra

/-! ### The scale -/

/-- The kernel's scale literal: the binary fraction 1/8. -/
def scale : EReal := Ideal.ofBits .f32 0x3E000000#32

theorem scale_eq : scale = ((1 / 8 : ℝ) : EReal) := by
  unfold scale
  simp [Ideal.ofBits, Ideal.ieee, -EReal.coe_mul]
  norm_num

theorem isReal_scale : IsReal scale := ⟨1 / 8, scale_eq⟩

theorem ofBits_one : Ideal.ofBits .f32 0x3F800000#32 = ((1 : ℝ) : EReal) := by
  simp [Ideal.ofBits, Ideal.ieee, -EReal.coe_mul]
  norm_num

theorem ofBits_64 : Ideal.ofBits .f32 0x42800000#32 = ((64 : ℝ) : EReal) := by
  simp [Ideal.ofBits, Ideal.ieee, -EReal.coe_mul]
  norm_num

/-- The reference's scale, one over the square root of 64, is the same number: √64 = 8. -/
theorem one_div_sqrt_64 :
    Ideal.div (Ideal.ofBits .f32 0x3F800000#32) (Ideal.sqrt (Ideal.ofBits .f32 0x42800000#32)) = scale := by
  have h8 : Real.sqrt 64 = 8 := by
    rw [show (64 : ℝ) = 8 ^ 2 by norm_num]
    exact Real.sqrt_sq (by norm_num)
  rw [ofBits_one, ofBits_64, Ideal.sqrt_coe, if_neg (by norm_num), h8,
    Ideal.div_coe (by norm_num : (8 : ℝ) ≠ 0), scale_eq, ← EReal.coe_mul, one_mul]

/-! ### One row -/

variable {ι κ : Type} [Fintype ι] [Fintype κ]

/-- The scaled score of key `j` against the query row. -/
def score (q : κ → EReal) (kk : ι → κ → EReal) (j : ι) : EReal := (∑ e, q e * kk j e) * scale

/-- The largest score of the row. -/
def rowMax (s : ι → EReal) : EReal := Finset.univ.sup s

/-- The unnormalised weight of key `j`. -/
def weight (s : ι → EReal) (j : ι) : EReal := Ideal.exp (s j - rowMax s)

/-- The row's normaliser. -/
def total (s : ι → EReal) : EReal := ∑ j, weight s j

/-- The weighted sum of the values, then the quotient by the normaliser. -/
def sumThenDivide (s v : ι → EReal) : EReal := Ideal.div (∑ j, weight s j * v j) (total s)

/-- Every weight divided by the normaliser, then the weighted sum of the values. -/
def divideThenSum (s v : ι → EReal) : EReal := ∑ j, Ideal.div (weight s j) (total s) * v j

/-- A score of real queries and keys is real. -/
theorem isReal_score (q : κ → EReal) (kk : ι → κ → EReal) (hq : ∀ e, IsReal (q e)) (hk : ∀ j e, IsReal (kk j e))
    (j : ι) : IsReal (score q kk j) :=
  isReal_mul (isReal_sum _ _ fun e _ => isReal_mul (hq e) (hk j e)) isReal_scale

/-- Where the scores and the values are real, the quotient moves across the sum. -/
theorem sumThenDivide_eq_divideThenSum [Nonempty ι] (s v : ι → EReal) (hs : ∀ j, IsReal (s j))
    (hv : ∀ j, IsReal (v j)) : sumThenDivide s v = divideThenSum s v := by
  classical
  choose sr hsr using hs
  choose vr hvr using hv
  -- the largest score is attained
  obtain ⟨j0, -, hj0⟩ := Finset.exists_mem_eq_sup (Finset.univ : Finset ι) Finset.univ_nonempty s
  have hmax : rowMax s = ((sr j0 : ℝ) : EReal) := by
    unfold rowMax; rw [hj0, hsr j0]
  have hw : ∀ j, weight s j = ((Real.exp (sr j - sr j0) : ℝ) : EReal) := by
    intro j
    unfold weight
    rw [hmax, hsr j, ← EReal.coe_sub]
    rfl
  have ht : total s = ((∑ j, Real.exp (sr j - sr j0) : ℝ) : EReal) := by
    unfold total
    rw [coe_sum]
    exact Finset.sum_congr rfl fun j _ => hw j
  have hpos : (0 : ℝ) < ∑ j, Real.exp (sr j - sr j0) :=
    Finset.sum_pos (fun j _ => Real.exp_pos _) Finset.univ_nonempty
  unfold sumThenDivide divideThenSum
  rw [ht, Ideal.div_coe hpos.ne']
  have hL : ∀ j, weight s j * v j = ((Real.exp (sr j - sr j0) * vr j : ℝ) : EReal) := by
    intro j; rw [hw j, hvr j, ← EReal.coe_mul]
  have hR : ∀ j, Ideal.div (weight s j) ((∑ j, Real.exp (sr j - sr j0) : ℝ) : EReal) * v j
      = ((Real.exp (sr j - sr j0) * (1 / ∑ j, Real.exp (sr j - sr j0)) * vr j : ℝ) : EReal) := by
    intro j; rw [Ideal.div_coe hpos.ne', hw j, hvr j, ← EReal.coe_mul, ← EReal.coe_mul]
  rw [Finset.sum_congr rfl (fun j _ => hL j), Finset.sum_congr rfl (fun j _ => hR j), ← coe_sum, ← coe_sum,
    ← EReal.coe_mul]
  congr 1
  rw [Finset.sum_mul]
  exact Finset.sum_congr rfl fun j _ => by ring

end Cert.Attn

end
-- ==== Proof.Rows.lean ====
/-
  A row's largest entry and a row's sum, in the two spellings the programs have for each.

  The kernel reduces a [1024 × 2048] block of scores over axis 1 from the accumulator pattern (−∞ for the
  maximum, 0 for the sum); the host program reduces a [2 × 16 × 2048 × 2048] array over dimension 3 from a
  rank-0 initial value. On the extended reals a fold of `max` from −∞ is the supremum of the row, and the
  pattern 0xFF800000 denotes −∞, so each reading is the supremum, resp. the sum, of the row's 2048 entries.
-/
import Idealize.ShloMosaic.PureOps.Ideal.Laws
import Idealize.ShloMosaic.Lib.ValueIdx
import Idealize.ShloMosaic.Lib.Pipeline.Value

noncomputable section

namespace Cert.Attn.Rows

open Idealize.ShloMosaic Idealize.ShloMosaic.ValueIdx

/-- One block of scores: a row of 2048 per query. -/
abbrev SL : Shape := ⟨2, ![1024, 2048]⟩
/-- One value per query of the block. -/
abbrev SR : Shape := ⟨1, ![1024]⟩
/-- All scores: a row of 2048 per (batch, head, query). -/
abbrev S4 : Shape := ⟨4, ![2, 16, 2048, 2048]⟩
/-- One value per (batch, head, query). -/
abbrev S3 : Shape := ⟨3, ![2, 16, 2048]⟩
/-- A single value. -/
abbrev S0 : Shape := ⟨0, ![]⟩

/-! ### The two accumulator patterns -/

theorem ofBits_neg_inf : Ideal.ofBits .f32 0xFF800000#32 = (⊥ : EReal) := by
  simp [Ideal.ofBits, Ideal.ieee]

/-- A fold of `max` from any value is the larger of that value and the supremum. -/
theorem fold_max_init {ι : Type*} (s : Finset ι) (f : ι → EReal) (b : EReal) : s.fold max b f = max b (s.sup f) := by
  induction s using Finset.cons_induction with
  | empty => rw [Finset.fold_empty, Finset.sup_empty, max_eq_left bot_le]
  | cons a s ha ih => rw [Finset.fold_cons, Finset.sup_cons, ih, max_left_comm]

/-- The −∞ pattern is absorbed by a maximum. -/
theorem max_neg_inf (m : EReal) : max (Ideal.ofBits .f32 0xFF800000#32) m = m := by
  rw [ofBits_neg_inf]; exact max_eq_right bot_le

/-! ### The kernel's reductions over axis 1, read at a row -/

theorem reduces_row : SL.Reduces [1] SR := by decide

/-- Row `r` with the column `k` inserted on axis 1 is the entry (r, k). -/
theorem lift_row (h : SL.Reduces [1] SR) (r : Fin 1024) (k : Fin 2048) : h.lift (ix1 r) k = ix2 r k := by
  funext b
  match b with
  | ⟨0, _⟩ => exact Fin.ext rfl
  | ⟨1, _⟩ => exact Fin.ext rfl

theorem kernel_rowMax (v : SL.Idx → EReal) (h : SL.Reduces [1] SR) (hφ : FKind.Formats .f32)
    (hacc : (0xFF800000#32 : BitVec FTy.f32.bits) = FKind.maximumf.neutral .f32 hφ) (r : Fin 1024) :
    multiReduction (F := Ideal) (φ := .f32) .maximumf [1] SR v 0xFF800000#32 h hφ hacc (ix1 r)
      = Finset.univ.sup (fun k : Fin 2048 => v (ix2 r k)) := by
  rw [Ideal.multiReduction_maximumf_single, Ideal.ofBits_def, fold_max_init, max_neg_inf]
  exact congrArg (Finset.sup Finset.univ) (funext fun k => congrArg v (lift_row h r k))

theorem kernel_rowSum (v : SL.Idx → EReal) (h : SL.Reduces [1] SR) (hφ : FKind.Formats .f32)
    (hacc : (0x00000000#32 : BitVec FTy.f32.bits) = FKind.add.neutral .f32 hφ) (r : Fin 1024) :
    multiReduction (F := Ideal) (φ := .f32) .add [1] SR v 0x00000000#32 h hφ hacc (ix1 r)
      = ∑ k : Fin 2048, v (ix2 r k) := by
  rw [Ideal.multiReduction_add_single]
  exact Finset.sum_congr rfl fun k _ => congrArg v (lift_row h r k)

/-! ### The host's reduction over dimension 3, read at a row -/

theorem reduces_row4 : S4.Reduces [3] S3 := by decide

/-- (b, h, q) with the key position `k` inserted on axis 3 is the entry (b, h, q, k). -/
theorem lift_row4 (h : S4.Reduces [3] S3) (b : Fin 2) (hd : Fin 16) (q : Fin 2048) (k : Fin 2048) :
    h.lift (ix3 b hd q) k = ix4 b hd q k := by
  funext a
  match a with
  | ⟨0, _⟩ => exact Fin.ext rfl
  | ⟨1, _⟩ => exact Fin.ext rfl
  | ⟨2, _⟩ => exact Fin.ext rfl
  | ⟨3, _⟩ => exact Fin.ext rfl

/-- From the printed −∞ constant: the row's supremum. -/
theorem host_rowMax (v : S4.Idx → EReal) (h' : S4.ReducesTo [3] S3) (hu : 0 < S0.numel)
    (b : Fin 2) (hd : Fin 16) (q : Fin 2048) :
    Host.reduce (FloatOps.maximumf (F := Ideal) (φ := .f32)) v (constant (F := Ideal) S0 .f32 0xFF800000#32) h' hu (ix3 b hd q)
      = Finset.univ.sup (fun k : Fin 2048 => v (ix4 b hd q k)) := by
  have h : S4.Reduces [3] S3 := reduces_row4
  rw [Host.reduce_eq_fold_single _ v _ h' h hu]
  refine (fold_max_init (Finset.univ : Finset (Fin (S4.size 3))) (v ∘ h.lift (ix3 b hd q)) _).trans ?_
  refine (max_neg_inf _).trans ?_
  exact congrArg (Finset.sup Finset.univ) (funext fun k => congrArg v (lift_row4 h b hd q k))

end Cert.Attn.Rows

end
-- ==== Proof.LibColumn.lean ====
/-
  Column vectors read at an index: a rank-1 array of `a` entries seen as an [a, 1] column, and an [a, 1] column
  broadcast across `b` columns. The library reads the ROW forms ([a] as [1, a]; [1, b] over [a, b]) by coordinates;
  these are the transposed cases, in the same style: the reshape by equating row-major positions, the broadcast by
  giving, per axis of the operand, the coordinate it is read at (0 on its unit axis).
-/
import Idealize.ShloMosaic.Lib.Pipeline.Value
import Idealize.ShloMosaic.Lib.ValueIdx

namespace Cert.Lib.Column

open Idealize.ShloMosaic Idealize.ShloMosaic.ValueIdx

variable {α : Type}

/-- A rank-1 array of `a` entries cast to an [a, 1] column reads, at `(i, u)`, the operand at `i`, whatever the unit
    coordinate `u`: entry `(i, u)` of the column sits at row-major position `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Payload.lean ====
/-
  What the kernel body stores, read at an index.

  The body loads a [1 × 1024 × 64] block of queries and the [1 × 2048 × 64] keys and values of the block's
  head, and stores, at (0, r, d): the scores of query row `r` against every key (a matrix product, times 1/8),
  their largest entry subtracted, the exponential, the weighted sum of column `d` of the values (a second
  matrix product), divided by the sum of the weights. The changes of float format are the identity on the
  extended reals. So the stored entry is `sumThenDivide` of the row's scores and the values' column.
-/
import proofs.«417647_j80436147519951_3_alg».proof.Proof.Gen.KernelIdeal.Skeleton
import proofs.«417647_j80436147519951_3_alg».proof.Proof.Softmax
import proofs.«417647_j80436147519951_3_alg».proof.Proof.Rows
import proofs.«417647_j80436147519951_3_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open Cert.Attn

/-! ### The two matrix products' operand indices -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The first product into a zero accumulator, at (r, k): the sum over the head dimension of the left row `r`
    times the right row `k`. -/
theorem matmul_qk_apply (a : FVec Ideal S1024x64 .bf16) (b : FVec Ideal S2048x64 .bf16) (r : Fin 1024) (k : Fin 2048) :
    matmul (F := Ideal) dot_S1024x64_S2048x64_S1024x2048_1_1_0_0_n_n none a b (constant S1024x2048 .f32 0x00000000#32) (ix2 r k)
      = ∑ e : Fin 64, a (ix2 r e) * b (ix2 k e) := by
  simp only [matmul]
  rw [Ideal.matmul_constant_zero_apply, ← Equiv.sum_comp (ValueIdx.contrEquiv1 dot_S1024x64_S2048x64_S1024x2048_1_1_0_0_n_n 64 rfl rfl).symm]
  refine Finset.sum_congr rfl fun e _ => ?_
  have he := ValueIdx.contrEquiv1_symm_val dot_S1024x64_S2048x64_S1024x2048_1_1_0_0_n_n 64 rfl rfl e
  have el : dot_S1024x64_S2048x64_S1024x2048_1_1_0_0_n_n.lhsIdx (ix2 r k) ((ValueIdx.contrEquiv1 dot_S1024x64_S2048x64_S1024x2048_1_1_0_0_n_n 64 rfl rfl).symm e) = ix2 r e := funext fun ax => Fin.ext (by
    match ax with
    | ⟨0, _⟩ => exact lhs_qk_0 _ _
    | ⟨1, _⟩ => exact (lhs_qk_1 _ _).trans he)
  have er : dot_S1024x64_S2048x64_S1024x2048_1_1_0_0_n_n.rhsIdx (ix2 r k) ((ValueIdx.contrEquiv1 dot_S1024x64_S2048x64_S1024x2048_1_1_0_0_n_n 64 rfl rfl).symm e) = ix2 k e := funext fun ax => Fin.ext (by
    match ax with
    | ⟨0, _⟩ => exact rhs_qk_0 _ _
    | ⟨1, _⟩ => exact (rhs_qk_1 _ _).trans he)
  rw [el, er]

/-- The second product into a zero accumulator, at (r, d): the sum over the key positions of the left row `r`
    times the right column `d`. -/
theorem matmul_pv_apply (a : FVec Ideal S1024x2048 .bf16) (b : FVec Ideal S2048x64 .bf16) (r : Fin 1024) (d : Fin 64) :
    matmul (F := Ideal) dot_S1024x2048_S2048x64_S1024x64_1_0_0_1_n_n none a b (constant S1024x64 .f32 0x00000000#32) (ix2 r d)
      = ∑ k : Fin 2048, a (ix2 r k) * b (ix2 k d) := by
  simp only [matmul]
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 r d) ((ValueIdx.contrEquiv1 dot_S1024x2048_S2048x64_S1024x64_1_0_0_1_n_n 2048 rfl rfl).symm k) = ix2 r k := funext fun ax => Fin.ext (by
    match ax with
    | ⟨0, _⟩ => exact lhs_pv_0 _ _
    | ⟨1, _⟩ => exact (lhs_pv_1 _ _).trans hk)
  have er : dot_S1024x2048_S2048x64_S1024x64_1_0_0_1_n_n.rhsIdx (ix2 r d) ((ValueIdx.contrEquiv1 dot_S1024x2048_S2048x64_S1024x64_1_0_0_1_n_n 2048 rfl rfl).symm k) = ix2 k d := funext fun ax => Fin.ext (by
    match ax with
    | ⟨0, _⟩ => exact (rhs_pv_0 _ _).trans hk
    | ⟨1, _⟩ => exact rhs_pv_1 _ _)
  rw [el, er]

/-! ### The body's intermediate arrays -/

/-- The block's scaled scores. -/
def scores (v0 : Vec Ideal S1x1024x64 .f32) (v3 : Vec Ideal S1x2048x64 .f32) : FVec Ideal S1024x2048 .f32 :=
  mulf (matmul dot_S1024x64_S2048x64_S1024x2048_1_1_0_0_n_n none
      (truncf .bf16 (shapeCast S1024x64 v0 shapeCasts_S1x1024x64_S1024x64) bitsLt_bf16_f32)
      (truncf .bf16 (shapeCast S2048x64 v3 shapeCasts_S1x2048x64_S2048x64) bitsLt_bf16_f32)
      (constant S1024x2048 .f32 0x00000000#32))
    (broadcast S1024x2048 (Scalar.ofBits .f32 0x3E000000#32))

/-- The block's unnormalised weights. -/
def weights (v0 : Vec Ideal S1x1024x64 .f32) (v3 : Vec Ideal S1x2048x64 .f32) : FVec Ideal S1024x2048 .f32 :=
  exp (subf (scores v0 v3)
    (broadcastTo S1024x2048
      (shapeCast S1024x1 (multiReduction .maximumf [1] S1024 (scores v0 v3) 0xFF800000#32 reduces_S1024x2048_S1024 (.inl rfl) rfl)
        shapeCasts_S1024_S1024x1)
      broadcasts_S1024x1_S1024x2048))

/-- The stored value over these two. -/
theorem pay_eq (v0 : Vec Ideal S1x1024x64 .f32) (v3 v6 : Vec Ideal S1x2048x64 .f32) :
    k0_pay1 (F := Ideal) v0 v3 v6
      = shapeCast S1x1024x64
          (divf
            (matmul dot_S1024x2048_S2048x64_S1024x64_1_0_0_1_n_n none
              (truncf .bf16 (weights v0 v3) bitsLt_bf16_f32)
              (truncf .bf16 (shapeCast S2048x64 v6 shapeCasts_S1x2048x64_S2048x64) bitsLt_bf16_f32)
              (constant S1024x64 .f32 0x00000000#32))
            (broadcastTo S1024x64
              (shapeCast S1024x1 (multiReduction .add [1] S1024 (weights v0 v3) 0x00000000#32 reduces_S1024x2048_S1024 (.inl rfl) rfl)
                shapeCasts_S1024_S1024x1)
              broadcasts_S1024x1_S1024x64))
          shapeCasts_S1024x64_S1x1024x64 := rfl

/-- The query row `r` of the block. -/
abbrev qrow (v0 : Vec Ideal S1x1024x64 .f32) (r : Fin 1024) : Fin 64 → EReal := fun e => v0 (ix3 (0 : Fin 1) r e)
/-- The keys, resp. the values, of the block's head. -/
abbrev mat (v : Vec Ideal S1x2048x64 .f32) : Fin 2048 → Fin 64 → EReal := fun j e => v (ix3 (0 : Fin 1) j e)

theorem scores_apply (v0 : Vec Ideal S1x1024x64 .f32) (v3 : Vec Ideal S1x2048x64 .f32) (r : Fin 1024) (k : Fin 2048) :
    scores v0 v3 (ix2 r k) = score (qrow v0 r) (mat v3) k := by
  unfold scores score
  rw [mulf_apply, matmul_qk_apply, broadcast_apply]
  refine congrArg₂ (· * ·) (Finset.sum_congr rfl fun e _ => ?_) rfl
  rw [truncf_apply, truncf_apply, shapeCast_1ab_ab_apply, shapeCast_1ab_ab_apply]

theorem rowMax_apply (v0 : Vec Ideal S1x1024x64 .f32) (v3 : Vec Ideal S1x2048x64 .f32) (r : Fin 1024) (k : Fin 2048) :
    broadcastTo S1024x2048
      (shapeCast S1024x1 (multiReduction .maximumf [1] S1024 (scores v0 v3) 0xFF800000#32 reduces_S1024x2048_S1024 (.inl rfl) rfl)
        shapeCasts_S1024_S1024x1)
      broadcasts_S1024x1_S1024x2048 (ix2 r k)
      = rowMax (score (qrow v0 r) (mat v3)) := by
  rw [Cert.Lib.Column.broadcastTo_a1_ab_apply, Cert.Lib.Column.shapeCast_a_a1_apply]
  refine (Cert.Attn.Rows.kernel_rowMax (scores v0 v3) reduces_S1024x2048_S1024 (.inl rfl) rfl r).trans ?_
  unfold rowMax
  exact congrArg (Finset.sup Finset.univ) (funext fun k' => scores_apply v0 v3 r k')

/-- The exponential of a vector, read at an index. -/
theorem exp_apply {s : Shape} (x : FVec Ideal s .f32) (i : s.Idx) : exp x i = Ideal.exp (x i) := rfl

theorem weights_apply (v0 : Vec Ideal S1x1024x64 .f32) (v3 : Vec Ideal S1x2048x64 .f32) (r : Fin 1024) (k : Fin 2048) :
    weights v0 v3 (ix2 r k) = weight (score (qrow v0 r) (mat v3)) k := by
  unfold weights weight
  rw [exp_apply, subf_apply, scores_apply, rowMax_apply]

/-- The row's sum of weights, laid along the 64 output columns, read at an entry: the row's normaliser. -/
theorem rowSum_apply (v0 : Vec Ideal S1x1024x64 .f32) (v3 : Vec Ideal S1x2048x64 .f32) (r : Fin 1024) (d : Fin 64) :
    broadcastTo S1024x64
      (shapeCast S1024x1 (multiReduction .add [1] S1024 (weights v0 v3) 0x00000000#32 reduces_S1024x2048_S1024 (.inl rfl) rfl)
        shapeCasts_S1024_S1024x1)
      broadcasts_S1024x1_S1024x64 (ix2 r d)
      = total (score (qrow v0 r) (mat v3)) := by
  rw [Cert.Lib.Column.broadcastTo_a1_ab_apply, Cert.Lib.Column.shapeCast_a_a1_apply]
  refine (Cert.Attn.Rows.kernel_rowSum (weights v0 v3) reduces_S1024x2048_S1024 (.inl rfl) rfl r).trans ?_
  unfold total
  exact Finset.sum_congr rfl fun k _ => weights_apply v0 v3 r k

/-- The stored entry at (0, r, d). -/
theorem pay_apply (v0 : Vec Ideal S1x1024x64 .f32) (v3 v6 : Vec Ideal S1x2048x64 .f32) (r : Fin 1024) (d : Fin 64) :
    k0_pay1 (F := Ideal) v0 v3 v6 (ix3 (0 : Fin 1) r d)
      = sumThenDivide (score (qrow v0 r) (mat v3)) (fun j => mat v6 j d) := by
  rw [pay_eq, shapeCast_ab_1ab_apply, divf_apply, matmul_pv_apply, rowSum_apply]
  unfold sumThenDivide
  refine congrArg (fun x => Ideal.div x (total (score (qrow v0 r) (mat v3)))) (Finset.sum_congr rfl fun k _ => ?_)
  rw [truncf_apply, truncf_apply, weights_apply, shapeCast_1ab_ab_apply]

end Cert.KernelIdeal.Body

end
-- ==== Proof.Heads.lean ====
/-
  Merging and splitting the batch and head axes, read at an index.

  The kernel works on [32 × 2048 × 64] arrays: the [2 × 16 × 2048 × 64] inputs with batch `b` and head `h`
  merged into one axis, entry (b, h, q, e) at (16·b + h, q, e), and its result split back the same way. Both
  reshapes keep the row-major position, which is ((16·b + h)·2048 + q)·64 + e on either side.
-/
import Idealize.ShloMosaic.Lib.Pipeline.Value
import Idealize.ShloMosaic.Lib.ValueIdx

namespace Cert.Attn.Heads

open Idealize.ShloMosaic Idealize.ShloMosaic.ValueIdx

/-- Batch, head, position, feature. -/
abbrev S4 : Shape := ⟨4, ![2, 16, 2048, 64]⟩
/-- Merged batch and head, position, feature. -/
abbrev S3 : Shape := ⟨3, ![32, 2048, 64]⟩

/-- The merged index of batch `b` and head `h`. -/
abbrev bh (b : Fin 2) (h : Fin 16) : Fin 32 := ⟨b.val * 16 + h.val, by omega⟩

variable {α : Type}

/-- The merged array at (16·b + h, q, e) is the operand at (b, h, q, e). -/
theorem merge_apply (x : S4.Idx → α) (hc : S4.ShapeCasts S3) (b : Fin 2) (h : Fin 16) (q : Fin 2048) (e : Fin 64) :
    shapeCast S3 x hc (ix3 (bh b h) q e) = x (ix4 b h q e) :=
  shapeCast_apply x hc _ _ (by rw [Shape.rowMajor_val_four, Shape.rowMajor_val_three]; rfl)

/-- The split array at (b, h, q, e) is the operand at (16·b + h, q, e). -/
theorem split_apply (y : S3.Idx → α) (hc : S3.ShapeCasts S4) (b : Fin 2) (h : Fin 16) (q : Fin 2048) (e : Fin 64) :
    shapeCast S4 y hc (ix4 b h q e) = y (ix3 (bh b h) q e) :=
  shapeCast_apply y hc _ _ (by rw [Shape.rowMajor_val_four, Shape.rowMajor_val_three]; rfl)

end Cert.Attn.Heads
-- ==== Proof.KernelValue.lean ====
/-
  The kernel program's result as one function of its arguments.

  The region runs over 32 heads × 2 query tiles. At point (bh, qi) it reads query rows
  [1024·qi, 1024·qi + 1024) of head `bh` and all keys and values of that head, and writes back the
  [1 × 1024 × 64] block (bh, qi, 0) of the output. Each stored entry is `sumThenDivide` of its query row's
  scores and its value column, so the block is the restriction of ONE function `headwise` of the three
  [32 × 2048 × 64] arrays, the 64 blocks tile the output, and the output array ends at that function. The
  arrays the region reads are the arguments with batch and head merged; the program's result is the output
  with them split again.
-/
import proofs.«417647_j80436147519951_3_alg».proof.Proof.Gen.KernelIdeal.Frame
import proofs.«417647_j80436147519951_3_alg».proof.Proof.Payload
import proofs.«417647_j80436147519951_3_alg».proof.Proof.Heads
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)
open Cert.Attn

variable (m : (ℓ : Loc nD τ sig) → Buf (Elt Ideal) ℓ) (ρ : Dev nD → PrngReg)

/-- Attention head by head on [32 × 2048 × 64] arrays: entry (bh, q, d) from query row (bh, q), the keys of
    head `bh` and column `d` of its values. -/
def headwise (Q K W : S32x2048x64.Idx → EReal) : S32x2048x64.Idx → EReal := fun i =>
  sumThenDivide (score (fun e => Q (ix3 (i 0) (i 1) e)) (fun j e => K (ix3 (i 0) j e))) (fun j => W (ix3 (i 0) j (i 2)))

theorem hz3 : (![0, 0, 0] : Fin 3 → Nat) = fun _ => 0 := funext fun a => by fin_cases a <;> rfl

/-- The printed index maps over the grid: the queries' block moves with the output's, the keys' and the
    values' follow its head only. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 31 ∧ win0_3.index t (1 : Fin 3) ≤ 1 ∧ win0_3.index t (2 : Fin 3) = 0 :=
  (by decide +kernel : ∀ t : Fin grid0.N, _)

/-- Every (head, query tile) is some point's. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- What point `t` writes back is block `t` of `headwise` of the arrays as the region finds them. -/
theorem flushed_eq (c : Dev nD) (t : Fin cfg0.N) :
    (dats m 0 c).flushed 3 t
      = ((cfg0.win 3).blk t).view.read (Elt Ideal) (headwise (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x1024x64) hz3, View.ld_unit_zero (S := S1x2048x64) hz3]
  obtain ⟨e00, e01, e02, e10, e11, e12, e20, e21, e22, b0, b1, e32⟩ := idx_facts t
  funext j
  obtain ⟨u, r, d, rfl⟩ : ∃ (u : Fin 1) (r : Fin 1024) (d : Fin 64), j = ix3 u r d := ⟨j 0, j 1, j 2, eq_ix3 j⟩
  obtain rfl : u = 0 := Subsingleton.elim _ _
  refine (pay_apply (iblk m c 0 t) (iblk m c 1 t) (iblk m c 2 t) r d).trans ?_
  show _ = headwise (V m c main_v0) (V m c main_v1) (V m c main_v2) (((cfg0.win 3).blk t).view.emb (ix3 0 r d))
  unfold headwise
  have hq : qrow (iblk m c 0 t) r
      = fun e => V m c main_v0 (ix3 ((((cfg0.win 3).blk t).view.emb (ix3 0 r d)) 0) ((((cfg0.win 3).blk t).view.emb (ix3 0 r d)) 1) e) := by
    funext e
    show V m c main_v0 (((cfg0.win 0).blk t).view.emb (ix3 0 r e)) = _
    refine congrArg (V m c main_v0) (funext fun a => Fin.ext ?_)
    match a with
    | ⟨0, _⟩ => show win0_0.index t (0 : Fin 3) * 1 + 1 * 0 = win0_3.index t (0 : Fin 3) * 1 + 1 * 0; omega
    | ⟨1, _⟩ => show win0_0.index t (1 : Fin 3) * 1024 + 1 * r.val = win0_3.index t (1 : Fin 3) * 1024 + 1 * r.val; omega
    | ⟨2, _⟩ => show win0_0.index t (2 : Fin 3) * 64 + 1 * e.val = e.val; omega
  have hk : mat (iblk m c 1 t)
      = fun j e => V m c main_v1 (ix3 ((((cfg0.win 3).blk t).view.emb (ix3 0 r d)) 0) j e) := by
    funext j e
    show V m c main_v1 (((cfg0.win 1).blk t).view.emb (ix3 0 j e)) = _
    refine congrArg (V m c main_v1) (funext fun a => Fin.ext ?_)
    match a with
    | ⟨0, _⟩ => show win0_1.index t (0 : Fin 3) * 1 + 1 * 0 = win0_3.index t (0 : Fin 3) * 1 + 1 * 0; omega
    | ⟨1, _⟩ => show win0_1.index t (1 : Fin 3) * 2048 + 1 * j.val = j.val; omega
    | ⟨2, _⟩ => show win0_1.index t (2 : Fin 3) * 64 + 1 * e.val = e.val; omega
  have hv : (fun j => mat (iblk m c 2 t) j d)
      = fun j => V m c main_v2 (ix3 ((((cfg0.win 3).blk t).view.emb (ix3 0 r d)) 0) j ((((cfg0.win 3).blk t).view.emb (ix3 0 r d)) 2)) := by
    funext j
    show V m c main_v2 (((cfg0.win 2).blk t).view.emb (ix3 0 j d)) = _
    refine congrArg (V m c main_v2) (funext fun a => Fin.ext ?_)
    match a with
    | ⟨0, _⟩ => show win0_2.index t (0 : Fin 3) * 1 + 1 * 0 = win0_3.index t (0 : Fin 3) * 1 + 1 * 0; omega
    | ⟨1, _⟩ => show win0_2.index t (1 : Fin 3) * 2048 + 1 * j.val = j.val; omega
    | ⟨2, _⟩ => show win0_2.index t (2 : Fin 3) * 64 + 1 * d.val = win0_3.index t (2 : Fin 3) * 64 + 1 * d.val; omega
  rw [hq, hk, hv]

/-- An index of the output is in point `t`'s block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- The blocks tile the output. -/
theorem cover (i : S32x2048x64.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- The output array after the region. -/
theorem final (c : Dev nD) :
    (dats m 0 c).arrAt 3 cfg0.N = headwise (V m c main_v0) (V m c main_v1) (V m c main_v2) :=
  (dats m 0 c).arrAt_eq_of_cover 3 _ (fun t _ => flushed_eq m c t) cover

/-! ### The arrays the region finds: the arguments with batch and head merged -/

theorem V_v0 (c : Dev nD) : (V m c main_v0 : S32x2048x64.Idx → EReal)
    = shapeCast S32x2048x64 (m ((c : Thread nD τ).loc main_arg0)) shapeCasts_S2x16x2048x64_S32x2048x64 := by
  show StableHlo.after hostOps0 (fun b => m (c, b)) (Proc.devRef .tc main_v0) = _
  after_results
  rfl
theorem V_v1 (c : Dev nD) : (V m c main_v1 : S32x2048x64.Idx → EReal)
    = shapeCast S32x2048x64 (m ((c : Thread nD τ).loc main_arg1)) shapeCasts_S2x16x2048x64_S32x2048x64 := by
  show StableHlo.after hostOps0 (fun b => m (c, b)) (Proc.devRef .tc main_v1) = _
  after_results
  rfl
theorem V_v2 (c : Dev nD) : (V m c main_v2 : S32x2048x64.Idx → EReal)
    = shapeCast S32x2048x64 (m ((c : Thread nD τ).loc main_arg2)) shapeCasts_S2x16x2048x64_S32x2048x64 := by
  show StableHlo.after hostOps0 (fun b => m (c, b)) (Proc.devRef .tc main_v2) = _
  after_results
  rfl

/-! ### The line after the region: the output with batch and head split -/

theorem tail_eq (c : Dev nD) :
    Pipeline.afterTail₀ cfgs (dats m) 0 (V0 m) [hostOps1] c main_v4
      = shapeCast S2x16x2048x64 ((dats m 0 c).arrAt 3 cfg0.N) shapeCasts_S32x2048x64_S2x16x2048x64 := by
  unfold Pipeline.afterTail₀
  show StableHlo.after hostOps1 _ (Proc.devRef .tc main_v4) = _
  after_results
  exact congrArg (fun y => shapeCast S2x16x2048x64 y shapeCasts_S32x2048x64_S2x16x2048x64)
    (Pipeline.withArrays_arr spec0 launch0.win.arr_inj c _ _ 3)

/-! ### The program's result -/

/-- Attention on the [2 × 16 × 2048 × 64] arguments, the quotient taken after the weighted sum. -/
def result (Q K W : S2x16x2048x64.Idx → EReal) : S2x16x2048x64.Idx → EReal := fun i =>
  sumThenDivide (score (fun e => Q (ix4 (i 0) (i 1) (i 2) e)) (fun j e => K (ix4 (i 0) (i 1) j e)))
    (fun j => W (ix4 (i 0) (i 1) j (i 3)))

/-- Splitting the heads of `headwise` of the merged arguments is `result` of the arguments. -/
theorem split_headwise (Q K W : S2x16x2048x64.Idx → EReal) :
    shapeCast S2x16x2048x64
      (headwise (shapeCast S32x2048x64 Q shapeCasts_S2x16x2048x64_S32x2048x64)
        (shapeCast S32x2048x64 K shapeCasts_S2x16x2048x64_S32x2048x64)
        (shapeCast S32x2048x64 W shapeCasts_S2x16x2048x64_S32x2048x64))
      shapeCasts_S32x2048x64_S2x16x2048x64
      = result Q K W := by
  funext i
  obtain ⟨b, h, q, d, rfl⟩ : ∃ (b : Fin 2) (h : Fin 16) (q : Fin 2048) (d : Fin 64), i = ix4 b h q d :=
    ⟨i 0, i 1, i 2, i 3, eq_ix4 i⟩
  rw [Cert.Attn.Heads.split_apply]
  unfold headwise result
  show sumThenDivide (score (fun e => shapeCast S32x2048x64 Q shapeCasts_S2x16x2048x64_S32x2048x64 (ix3 (Cert.Attn.Heads.bh b h) q e))
      (fun j e => shapeCast S32x2048x64 K shapeCasts_S2x16x2048x64_S32x2048x64 (ix3 (Cert.Attn.Heads.bh b h) j e)))
      (fun j => shapeCast S32x2048x64 W shapeCasts_S2x16x2048x64_S32x2048x64 (ix3 (Cert.Attn.Heads.bh b h) j d))
    = sumThenDivide (score (fun e => Q (ix4 b h q e)) (fun j e => K (ix4 b h j e))) (fun j => W (ix4 b h j d))
  simp only [Cert.Attn.Heads.merge_apply]

/-- The frame run re-posted: the result at `result` of the arguments, the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans
        ((tail_eq m c).trans (by rw [final, V_v0, V_v1, V_v2]; exact split_headwise _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  What the reference computes, read at an index.

  Stage by stage over the reference's run: the scaled scores (a batched product over the head dimension,
  times one over the square root of 64), each row's largest score, the exponentials of the differences, each
  row's sum of them, the quotients, and the batched product with the values. At (b, h, q, d) that is
  `divideThenSum` of the scores of query row (b, h, q) and column `d` of head (b, h)'s values.
-/
import proofs.«417647_j80436147519951_3_alg».proof.Proof.Gen.ReferenceIdeal.Read
import proofs.«417647_j80436147519951_3_alg».proof.Proof.Softmax
import proofs.«417647_j80436147519951_3_alg».proof.Proof.Rows
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S2x16x2048x64, .f32⟩ : BufTy).Contents (Elt Ideal))

/-- Query row (b, h, q). -/
abbrev qrow (b : Fin 2) (h : Fin 16) (q : Fin 2048) : Fin 64 → EReal := fun e => x0 (ix4 b h q e)
/-- The keys, resp. the values, of head (b, h). -/
abbrev mat (x : (⟨S2x16x2048x64, .f32⟩ : BufTy).Contents (Elt Ideal)) (b : Fin 2) (h : Fin 16) : Fin 2048 → Fin 64 → EReal :=
  fun j e => x (ix4 b h j e)

/-! ### The stages' operand indices, by coordinates -/

theorem lidx2 (b : Fin 2) (h : Fin 16) (q k : Fin 2048) (e : Fin 64) : lidx_main_v2 (ix4 b h q k) e = ix4 b h q e :=
  funext fun a => Fin.ext (by match a with | ⟨0, _⟩ => rfl | ⟨1, _⟩ => rfl | ⟨2, _⟩ => rfl | ⟨3, _⟩ => rfl)
theorem ridx2 (b : Fin 2) (h : Fin 16) (q k : Fin 2048) (e : Fin 64) : ridx_main_v2 (ix4 b h q k) e = ix4 b h k e :=
  funext fun a => Fin.ext (by match a with | ⟨0, _⟩ => rfl | ⟨1, _⟩ => rfl | ⟨2, _⟩ => rfl | ⟨3, _⟩ => rfl)
theorem idx89 (b : Fin 2) (h : Fin 16) (q k : Fin 2048) : idx_main_v8 (idx_main_v9 (ix4 b h q k)) = ix3 b h q :=
  funext fun a => Fin.ext (by match a with | ⟨0, _⟩ => rfl | ⟨1, _⟩ => rfl | ⟨2, _⟩ => rfl)
theorem idx1314 (b : Fin 2) (h : Fin 16) (q k : Fin 2048) : idx_main_v13 (idx_main_v14 (ix4 b h q k)) = ix3 b h q :=
  funext fun a => Fin.ext (by match a with | ⟨0, _⟩ => rfl | ⟨1, _⟩ => rfl | ⟨2, _⟩ => rfl)
theorem idx12 (b : Fin 2) (h : Fin 16) (q k : Fin 2048) : idx_main_v12 (ix3 b h q) k = ix4 b h q k :=
  funext fun a => Fin.ext (by match a with | ⟨0, _⟩ => rfl | ⟨1, _⟩ => rfl | ⟨2, _⟩ => rfl | ⟨3, _⟩ => rfl)
theorem lidx16 (b : Fin 2) (h : Fin 16) (q k : Fin 2048) (d : Fin 64) : lidx_main_v16 (ix4 b h q d) k = ix4 b h q k :=
  funext fun a => Fin.ext (by match a with | ⟨0, _⟩ => rfl | ⟨1, _⟩ => rfl | ⟨2, _⟩ => rfl | ⟨3, _⟩ => rfl)
theorem ridx16 (b : Fin 2) (h : Fin 16) (q k : Fin 2048) (d : Fin 64) : ridx_main_v16 (ix4 b h q d) k = ix4 b h k d :=
  funext fun a => Fin.ext (by match a with | ⟨0, _⟩ => rfl | ⟨1, _⟩ => rfl | ⟨2, _⟩ => rfl | ⟨3, _⟩ => rfl)

/-! ### The stages -/

/-- The scale splat: one over the square root of 64, everywhere. -/
theorem scale_apply (i : S2x16x2048x2048.Idx) : val_main_v3 (F := Ideal) i = scale := by
  rw [val_main_v3_apply, val_main_v1_apply, val_main_cst_0_apply, val_main_v0_apply, val_main_cst_apply]
  exact one_div_sqrt_64

theorem scores_apply (b : Fin 2) (h : Fin 16) (q k : Fin 2048) :
    val_main_v4 (F := Ideal) x0 x1 (ix4 b h q k) = score (qrow x0 b h q) (mat x1 b h) k := by
  rw [val_main_v4_apply, val_main_v2_apply, scale_apply]
  unfold score
  show (∑ e : Fin 64, _) * scale = _
  refine congrArg (· * scale) (Finset.sum_congr rfl fun e _ => ?_)
  rw [lidx2, ridx2]

theorem rowMax_apply (b : Fin 2) (h : Fin 16) (q k : Fin 2048) :
    val_main_v9 (F := Ideal) x0 x1 (ix4 b h q k) = rowMax (score (qrow x0 b h q) (mat x1 b h)) := by
  rw [val_main_v9_apply, val_main_v8_apply, idx89, val_main_v7_apply, val_main_v6_apply, val_main_cst_2_apply]
  show max (Ideal.ofBits .f32 0xFF800000#32) (val_main_v5 (F := Ideal) x0 x1 (ix3 b h q)) = _
  rw [Cert.Attn.Rows.max_neg_inf]
  unfold val_main_v5 val_main_cst_1
  rw [Cert.Attn.Rows.host_rowMax]
  unfold rowMax
  exact congrArg (Finset.sup Finset.univ) (funext fun k' => scores_apply x0 x1 b h q k')

theorem weights_apply (b : Fin 2) (h : Fin 16) (q k : Fin 2048) :
    val_main_v11 (F := Ideal) x0 x1 (ix4 b h q k) = weight (score (qrow x0 b h q) (mat x1 b h)) k := by
  rw [val_main_v11_apply, val_main_v10_apply, scores_apply, rowMax_apply]
  rfl

theorem total_apply (b : Fin 2) (h : Fin 16) (q k : Fin 2048) :
    val_main_v14 (F := Ideal) x0 x1 (ix4 b h q k) = total (score (qrow x0 b h q) (mat x1 b h)) := by
  rw [val_main_v14_apply, val_main_v13_apply, idx1314, val_main_v12_apply, val_main_cst_3_apply]
  show Ideal.ofBits .f32 0x00000000#32 + _ = _
  rw [Ideal.ofBits_zero_f32, zero_add]
  unfold total
  refine Finset.sum_congr rfl fun k' _ => ?_
  rw [idx12, weights_apply]

/-- The reference's result at (b, h, q, d). -/
theorem result_apply (b : Fin 2) (h : Fin 16) (q : Fin 2048) (d : Fin 64) :
    val_main_v16 (F := Ideal) x0 x1 x2 (ix4 b h q d)
      = divideThenSum (score (qrow x0 b h q) (mat x1 b h)) (fun j => mat x2 b h j d) := by
  rw [val_main_v16_apply]
  unfold divideThenSum
  refine Finset.sum_congr rfl fun k _ => ?_
  rw [lidx16, ridx16, val_main_v15_apply, weights_apply, total_apply]
  rfl

end Cert.ReferenceIdeal.RefValue

end
-- ==== Proof.Finite.lean ====
/-
  From the precondition to real entries.

  The precondition is the conjunction, over the three inputs, of "every entry's absolute value is below +∞".
  Each conjunct is a reduction by `and` over all four axes of an entrywise comparison, so it gives the
  comparison at every index; and an extended real whose absolute value is below +∞ is neither infinity, that
  is, it is a real number.
-/
import proofs.«417647_j80436147519951_3_alg».proof.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic

instance : Subsingleton S_.Idx := ⟨fun a b => funext fun d => d.elim0⟩

theorem ofBits_inf : Ideal.ofBits .f32 0x7F800000#32 = (⊤ : EReal) := by
  simp [Ideal.ofBits, Ideal.ieee]

/-- An extended real whose absolute value compares below +∞ is a real number. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

variable [Facts]

/-- One conjunct of the precondition gives a real number at every index of its input. -/
theorem real_of_all (x : FVec Ideal S2x16x2048x64 .f32)
    (h : Host.reduce IntOp.andi
        (cmpf .olt (Host.absf x) (broadcastInDim S2x16x2048x64 ![] Facts.bcast_S_S2x16x2048x64 (constant (F := Ideal) S_ .f32 0x7F800000#32)))
        (constantI S_ 1 1#1) Facts.reducesTo_S2x16x2048x64_S_d0_1_2_3 Facts.h_S_ ValueIdx.ix0 = 1#1)
    (i : S2x16x2048x64.Idx) : ∃ r : ℝ, x i = (r : EReal) :=
  real_of_abs_lt_top (x i) (Host.reduce_andi_all _ _ _ _ _ h i)

/-- Under the precondition every entry of every input is a real number. -/
theorem real_of_pre (x0 x1 x2 : FVec Ideal S2x16x2048x64 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Pre_finite_inputs.Decode

end
-- ==== Proof.Algebraic.lean ====
/-
  The two programs compute one function.

  Under the precondition every entry of Q, K and V is a real number. The kernel program's result at
  (b, h, q, d) takes the weighted sum of column `d` of head (b, h)'s values and divides it by the row's
  normaliser; the reference divides each weight first. Every score of real queries and keys is real, so the
  quotient moves across the sum (`sumThenDivide_eq_divideThenSum`), and the two results agree at every index.
-/
import proofs.«417647_j80436147519951_3_alg».proof.Defs
import proofs.«417647_j80436147519951_3_alg».proof.Proof.Gen.KernelIdeal
import proofs.«417647_j80436147519951_3_alg».proof.Proof.Gen.ReferenceIdeal
import proofs.«417647_j80436147519951_3_alg».proof.Proof.Gen.Pre_finite_inputs
import proofs.«417647_j80436147519951_3_alg».proof.Proof.KernelValue
import proofs.«417647_j80436147519951_3_alg».proof.Proof.RefValue
import proofs.«417647_j80436147519951_3_alg».proof.Proof.Finite

noncomputable section

namespace Cert.Proof.Attention

open Idealize.ShloMosaic Idealize.ShloMosaic.TcCoe Idealize.ShloMosaic.ValueIdx Idealize.SL.Sem
open Cert.Attn

/-- On real inputs the reference's result is the kernel program's. -/
theorem result_eq (Q K W : Cert.KernelIdeal.S2x16x2048x64.Idx → EReal)
    (hQ : ∀ i, ∃ r : ℝ, Q i = (r : EReal)) (hK : ∀ i, ∃ r : ℝ, K i = (r : EReal)) (hW : ∀ i, ∃ r : ℝ, W i = (r : EReal)) :
    Cert.ReferenceIdeal.Read.val_main_v16 (F := Ideal) Q K W = Cert.KernelIdeal.Whole.result Q K W := by
  funext i
  obtain ⟨b, h, q, d, rfl⟩ : ∃ (b : Fin 2) (h : Fin 16) (q : Fin 2048) (d : Fin 64), i = ix4 b h q d :=
    ⟨i 0, i 1, i 2, i 3, eq_ix4 i⟩
  haveI : Nonempty (Fin 2048) := ⟨0⟩
  rw [Cert.ReferenceIdeal.RefValue.result_apply]
  unfold Cert.KernelIdeal.Whole.result
  exact (sumThenDivide_eq_divideThenSum _ _
    (fun j => isReal_score _ _ (fun e => hQ _) (fun j e => hK _) j) (fun j => hW _)).symm

/-- From memories agreeing on the arguments both programs end with the same result. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _).trans ?_
  rw [(hagree c).1, (hagree c).2.1, (hagree c).2.2]
  obtain ⟨h0, h1, h2⟩ := Cert.Pre_finite_inputs.Decode.real_of_pre _ _ _ (hpre c)
  exact result_eq _ _ _ h0 h1 h2

end Cert.Proof.Attention

end
-- ==== Proof.lean ====
/-
  Attention, out = softmax(Q Kᵀ / √64) V, as a tiled kernel against its direct statement.

  The kernel program merges batch and head, runs one region over (head, query tile) whose body takes a
  tile's scores against all keys of the head, subtracts each row's largest score, exponentiates, forms the
  weighted sum of the values and divides it by the row's sum of weights, and splits the heads again. The
  reference scales the scores by one over the square root of 64 (the same number as the kernel's literal
  1/8), normalises the weights first and then takes the weighted sum. On real inputs, which the precondition
  gives, a quotient by a positive real moves across a finite sum, so the two results agree entry by entry.

  The three frames are the generated runs (the reference's with its result dropped); the idealization
  rewrote nothing; the equivalence is `Cert.Proof.Attention.algebraic`.
-/
import proofs.«417647_j80436147519951_3_alg».proof.Defs
import proofs.«417647_j80436147519951_3_alg».proof.Proof.Gen.Kernel
import proofs.«417647_j80436147519951_3_alg».proof.Proof.Gen.Kernel.Skeleton
import proofs.«417647_j80436147519951_3_alg».proof.Proof.Gen.Kernel.Launch
import proofs.«417647_j80436147519951_3_alg».proof.Proof.Gen.Kernel.Points
import proofs.«417647_j80436147519951_3_alg».proof.Proof.Gen.Kernel.Frame
import proofs.«417647_j80436147519951_3_alg».proof.Proof.Gen.KernelIdeal
import proofs.«417647_j80436147519951_3_alg».proof.Proof.Gen.KernelIdeal.Skeleton
import proofs.«417647_j80436147519951_3_alg».proof.Proof.Gen.KernelIdeal.Launch
import proofs.«417647_j80436147519951_3_alg».proof.Proof.Gen.KernelIdeal.Points
import proofs.«417647_j80436147519951_3_alg».proof.Proof.Gen.KernelIdeal.Frame
import proofs.«417647_j80436147519951_3_alg».proof.Proof.Gen.ReferenceIdeal
import proofs.«417647_j80436147519951_3_alg».proof.Proof.Gen.Pre_finite_inputs
import proofs.«417647_j80436147519951_3_alg».proof.Proof.Gen.ReferenceIdeal.Run
import proofs.«417647_j80436147519951_3_alg».proof.Proof.Gen.ReferenceIdeal.Read
import proofs.«417647_j80436147519951_3_alg».proof.Proof.Algebraic
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Attention.algebraic⟩

end Cert.Proof

end
